-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S32x1024 : Shape := ⟨2, ![32, 1024]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S128x512 .f32) (main_arg1 : FVec F S32x1024 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  main_v8
-- ==== Kernel.lean ====
abbrev S128x512 : Shape := ⟨2, ![128, 512]⟩
abbrev S32x1024 : Shape := ⟨2, ![32, 1024]⟩
abbrev S128x1024 : Shape := ⟨2, ![128, 1024]⟩
abbrev S16x256 : Shape := ⟨2, ![16, 256]⟩
abbrev S128x256 : Shape := ⟨2, ![128, 256]⟩
abbrev S128x128 : Shape := ⟨2, ![128, 128]⟩
abbrev S128x64 : Shape := ⟨2, ![128, 64]⟩
abbrev S128x32 : Shape := ⟨2, ![128, 32]⟩
abbrev S128x16 : Shape := ⟨2, ![128, 16]⟩
abbrev S128x1 : Shape := ⟨2, ![128, 1]⟩
abbrev S1x256 : Shape := ⟨2, ![1, 256]⟩

abbrev nBuf : Space → Nat
  | .hbm => 3
  | .vmem => 5
  | .smem => 0
  | _ => 0

abbrev bufTy : (tb : Table) → Fin (tcTables nBuf tb) → BufTy
  | .hbm, ⟨0, _⟩ => ⟨S128x512, .f32⟩
  | .hbm, ⟨1, _⟩ => ⟨S32x1024, .f32⟩
  | .hbm, ⟨2, _⟩ => ⟨S128x1024, .f32⟩
  | .local _ .vmem, ⟨0, _⟩ => ⟨S128x512, .f32⟩
  | .local _ .vmem, ⟨1, _⟩ => ⟨S16x256, .f32⟩
  | .local _ .vmem, ⟨2, _⟩ => ⟨S16x256, .f32⟩
  | .local _ .vmem, ⟨3, _⟩ => ⟨S128x256, .f32⟩
  | .local _ .vmem, ⟨4, _⟩ => ⟨S128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x512_S128x512_0_0 : ∀ a, (![0, 0] : Fin 2 → Nat) a + S128x512.size a ≤ S128x512.size a
  h_S128x512 : 0 < S128x512.numel
  natLt_1_32 : 1 < 32
  slices_S128x512_o0_0_S128x256 : S128x512.Slices ![0, 0] S128x256
  slices_S128x512_o0_256_S128x256 : S128x512.Slices ![0, 256] S128x256
  slices_S128x256_o0_0_S128x128 : S128x256.Slices ![0, 0] S128x128
  slices_S128x256_o0_128_S128x128 : S128x256.Slices ![0, 128] S128x128
  slices_S128x128_o0_0_S128x64 : S128x128.Slices ![0, 0] S128x64
  slices_S128x128_o0_64_S128x64 : S128x128.Slices ![0, 64] S128x64
  slices_S128x64_o0_0_S128x32 : S128x64.Slices ![0, 0] S128x32
  slices_S128x64_o0_32_S128x32 : S128x64.Slices ![0, 32] S128x32
  slices_S128x32_o0_0_S128x16 : S128x32.Slices ![0, 0] S128x16
  slices_S128x32_o0_16_S128x16 : S128x32.Slices ![0, 16] S128x16
  inb_S16x256_S16x256_0_0 : ∀ a, (![0, 0] : Fin 2 → Nat) a + S16x256.size a ≤ S16x256.size a
  h_S16x256 : 0 < S16x256.numel
  slices_S128x16_o0_0_S128x1 : S128x16.Slices ![0, 0] S128x1
  slices_S16x256_o0_0_S1x256 : S16x256.Slices ![0, 0] S1x256
  broadcasts_S128x1_S128x256 : S128x1.Broadcasts S128x256
  broadcasts_S1x256_S128x256 : S1x256.Broadcasts S128x256
  slices_S128x16_o0_1_S128x1 : S128x16.Slices ![0, 1] S128x1
  slices_S16x256_o1_0_S1x256 : S16x256.Slices ![1, 0] S1x256
  slices_S128x16_o0_2_S128x1 : S128x16.Slices ![0, 2] S128x1
  slices_S16x256_o2_0_S1x256 : S16x256.Slices ![2, 0] S1x256
  slices_S128x16_o0_3_S128x1 : S128x16.Slices ![0, 3] S128x1
  slices_S16x256_o3_0_S1x256 : S16x256.Slices ![3, 0] S1x256
  slices_S128x16_o0_4_S128x1 : S128x16.Slices ![0, 4] S128x1
  slices_S16x256_o4_0_S1x256 : S16x256.Slices ![4, 0] S1x256
  slices_S128x16_o0_5_S128x1 : S128x16.Slices ![0, 5] S128x1
  slices_S16x256_o5_0_S1x256 : S16x256.Slices ![5, 0] S1x256
  slices_S128x16_o0_6_S128x1 : S128x16.Slices ![0, 6] S128x1
  slices_S16x256_o6_0_S1x256 : S16x256.Slices ![6, 0] S1x256
  slices_S128x16_o0_7_S128x1 : S128x16.Slices ![0, 7] S128x1
  slices_S16x256_o7_0_S1x256 : S16x256.Slices ![7, 0] S1x256
  slices_S128x16_o0_8_S128x1 : S128x16.Slices ![0, 8] S128x1
  slices_S16x256_o8_0_S1x256 : S16x256.Slices ![8, 0] S1x256
  slices_S128x16_o0_9_S128x1 : S128x16.Slices ![0, 9] S128x1
  slices_S16x256_o9_0_S1x256 : S16x256.Slices ![9, 0] S1x256
  slices_S128x16_o0_10_S128x1 : S128x16.Slices ![0, 10] S128x1
  slices_S16x256_o10_0_S1x256 : S16x256.Slices ![10, 0] S1x256
  slices_S128x16_o0_11_S128x1 : S128x16.Slices ![0, 11] S128x1
  slices_S16x256_o11_0_S1x256 : S16x256.Slices ![11, 0] S1x256
  slices_S128x16_o0_12_S128x1 : S128x16.Slices ![0, 12] S128x1
  slices_S16x256_o12_0_S1x256 : S16x256.Slices ![12, 0] S1x256
  slices_S128x16_o0_13_S128x1 : S128x16.Slices ![0, 13] S128x1
  slices_S16x256_o13_0_S1x256 : S16x256.Slices ![13, 0] S1x256
  slices_S128x16_o0_14_S128x1 : S128x16.Slices ![0, 14] S128x1
  slices_S16x256_o14_0_S1x256 : S16x256.Slices ![14, 0] S1x256
  slices_S128x16_o0_15_S128x1 : S128x16.Slices ![0, 15] S128x1
  slices_S16x256_o15_0_S1x256 : S16x256.Slices ![15, 0] S1x256
  inb_S128x256_S128x256_0_0 : ∀ a, (![0, 0] : Fin 2 → Nat) a + S128x256.size a ≤ S128x256.size a
  h_S128x256 : 0 < S128x256.numel
  dot_S128x16_S16x256_S128x256_1_0_0_1_n_n_wf : DotDims.WF S128x16 S16x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .f32 = 32 ∨ (Rect.block (s := S128x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S32x1024.size a
  hwx0_1 : ∀ i : grid0.Coords, EltTy.bits .f32 = 32 ∨ (Rect.block (s := S32x1024) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x1024.size a
  hwx0_2 : ∀ i : grid0.Coords, EltTy.bits .f32 = 32 ∨ (Rect.block (s := S128x1024) S128x256.size (cc0_transform_2 i) (hinb0_2 i)).WholeWords (EltTy.packing .f32)

variable [Facts₀]

def dot_S128x16_S16x256_S128x256_1_0_0_1_n_n : DotDims S128x16 S16x256 S128x256 where
  lhsContracting := [1]
  rhsContracting := [0]
  lhsNonContracting := [0]
  rhsNonContracting := [1]
  lhsBatch := []
  rhsBatch := []
  wf := dot_S128x16_S16x256_S128x256_1_0_0_1_n_n_wf

abbrev win0_0 : Pipeline.Window sig grid0 :=
  Pipeline.Window.ofSpec (Memref.whole main_arg0) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512 : Shape := ⟨2, ![128, 512]⟩
abbrev S32x1024 : Shape := ⟨2, ![32, 1024]⟩
abbrev S512 : Shape := ⟨1, ![512]⟩
abbrev S_ : Shape := ⟨0, ![]⟩
abbrev S512x1 : Shape := ⟨2, ![512, 1]⟩
abbrev S512x1024 : Shape := ⟨2, ![512, 1024]⟩
abbrev S1x512x1024 : Shape := ⟨3, ![1, 512, 1024]⟩
abbrev S128x512x1 : Shape := ⟨3, ![128, 512, 1]⟩
abbrev S128x512x1024 : Shape := ⟨3, ![128, 512, 1024]⟩
abbrev S128x1024 : Shape := ⟨2, ![128, 1024]⟩

abbrev nBuf : Space → Nat
  | .hbm => 33
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S32x1024, .f32⟩
  | .hbm, ⟨2, _⟩ => ⟨S512, .i32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512x1024, .f32⟩
  | .hbm, ⟨12, _⟩ => ⟨S1x512x1024, .f32⟩
  | .hbm, ⟨13, _⟩ => ⟨S128x512x1, .f32⟩
  | .hbm, ⟨14, _⟩ => ⟨S128x512x1024, .f32⟩
  | .hbm, ⟨15, _⟩ => ⟨S128x512x1024, .f32⟩
  | .hbm, ⟨16, _⟩ => ⟨S128x512x1024, .f32⟩
  | .hbm, ⟨17, _⟩ => ⟨S128x512x1024, .f32⟩
  | .hbm, ⟨18, _⟩ => ⟨S_, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x512, .f32⟩
  | .hbm, ⟨25, _⟩ => ⟨S128x512, .i1⟩
  | .hbm, ⟨26, _⟩ => ⟨S128x512, .f32⟩
  | .hbm, ⟨27, _⟩ => ⟨S128x512, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x1024_S1x512x1024_1_2 : S512x1024.BroadcastsInDim S1x512x1024 (![1, 2] : Fin 2 → Fin S1x512x1024.rank)
  bcast_S128x512_S128x512x1_0_1 : S128x512.BroadcastsInDim S128x512x1 (![0, 1] : Fin 2 → Fin S128x512x1.rank)
  bcast_S1x512x1024_S128x512x1024_0_1_2 : S1x512x1024.BroadcastsInDim S128x512x1024 (![0, 1, 2] : Fin 3 → Fin S128x512x1024.rank)
  bcast_S128x512x1_S128x512x1024_0_1_2 : S128x512x1.BroadcastsInDim S128x512x1024 (![0, 1, 2] : Fin 3 → Fin S128x512x1024.rank)
  reducesTo_S128x512x1024_S128x1024_d1 : S128x512x1024.ReducesTo [1] S128x1024
  h_S_ : 0 < S_.numel
  bcast_S_S128x512 : S_.BroadcastsInDim S128x512 (![] : Fin 0 → Fin S128x512.rank)
  bcast_S_S128x1024 : S_.BroadcastsInDim S128x1024 (![] : Fin 0 → Fin S128x1024.rank)
  gather_S32x1024_S512x1_S512x1024_1_0_n_n_0_1_11024_wf : GatherDims.WF S32x1024 S512x1 S512x1024 [1] [0] [] [0] [] 1 ![1, 1024]
  dot_S128x512_S512x1024_S128x1024_1_0_0_1_n_n_wf : DotDims.WF S128x512 S512x1024 S128x1024 [1] [0] [0] [1] [] []

variable [Facts₀]

def gather_S32x1024_S512x1_S512x1024_1_0_n_n_0_1_11024 : GatherDims S32x1024 S512x1 S512x1024 where
  offsetDims := [1]
  collapsedSliceDims := [0]
  operandBatchingDims := []
  startIndicesBatchingDims := []
  startIndexMap := [0]
  indexVectorDim := 1
  sliceSizes := ![1, 1024]
  wf := gather_S32x1024_S512x1_S512x1024_1_0_n_n_0_1_11024_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf

class Facts : Prop extends Facts₀ where

variable [Facts]
-- ==== Proof.Spec.lean ====
/-
  The mathematics both programs compute, as functions of ONE row of `x` and ONE column of `weights`, and the law that
  joins their two arrangements.

  Fix a batch row and an output column. Write `a i` (`i < 512`) for the row of `x` and `u r` (`r < 16`) for the column of the
  first sixteen weight rows. Feature `i` uses weight row `i % 16`, so with `i = r + 16 g` the weight depends on `r` alone.

  * the flat arrangement sums, and maximises, over all 512 features:
      `∑ i, (a i · gate (a i)) · u (i % 16)  +  δ · (max_i |u (i % 16) · a i|  −  ∑ i |u (i % 16) · a i|)`;
  * the factored arrangement first folds the 32 repeats `g` of each in-group position `r` by a halving tree
    (512 → 256 → … → 16 lanes), then contracts over the 16 positions:
      `∑ r, (∑ g, a (r+16g) · gate (a (r+16g))) · u r  +  δ · (max_r (max_g |a (r+16g)|) · |u r|  −  ∑ r (∑ g |a (r+16g)|) · |u r|)`.

  They agree whenever every `a i` and `u r` is a real number: a real factor distributes over a finite sum,
  `|u · a| = |a| · |u|`, and a nonnegative real factor commutes with a finite maximum.
-/
import Idealize.ShloMosaic.PureOps.Ideal

open scoped BigOperators

noncomputable section

namespace Cert.LogicNeuron

open Finset

/-- The 0/1 gate `[a ≥ -1]` as an extended real (the comparison bit read as an unsigned integer). -/
def gate (a : EReal) : EReal :=
  ((( Idealize.ShloMosaic.Ideal.cmp .oge a (Idealize.ShloMosaic.Ideal.ofBits .f32 0xBF800000#32)).toNat : ℝ) : EReal)

/-- The scale `δ` of both programs: the extended real the f32 pattern of `0.1` denotes (never evaluated: the same
    word on both sides). -/
def tenth : EReal := Idealize.ShloMosaic.Ideal.ofBits .f32 0x3DCCCCCD#32

/-- `|a|` on the extended reals, as the ideal instance spells it. -/
def eabs (a : EReal) : EReal := max a (-a)

/-- One halving step of the lane fold: lane `j` of the folded row combines lanes `j` and `n + j`. -/
def halve {α : Type} (op : α → α → α) (n : ℕ) (f : ℕ → α) : ℕ → α := fun j => op (f j) (f (n + j))

/-- The five halving steps 512 → 16 lanes. -/
def fold5 {α : Type} (op : α → α → α) (f : ℕ → α) : ℕ → α :=
  halve op 16 (halve op 32 (halve op 64 (halve op 128 (halve op 256 f))))

/-- A left-nested chain of maxima `max (… (max (t 0) (t 1)) …) (t n)`. -/
def chainMax (t : ℕ → EReal) : ℕ → EReal
  | 0 => t 0
  | n + 1 => max (chainMax t n) (t (n + 1))

/-- The factored arrangement (what the kernel computes), for a scale `δ`. -/
def factored (δ : EReal) (a u : ℕ → EReal) : EReal :=
  (∑ r ∈ range 16, fold5 (· + ·) (fun i => a i * gate (a i)) r * u r)
    + δ * (chainMax (fun r => fold5 max (fun i => eabs (a i)) r * eabs (u r)) 15
        - ∑ r ∈ range 16, fold5 (· + ·) (fun i => eabs (a i)) r * eabs (u r))

/-- The flat arrangement (what the reference computes), for a scale `δ`. -/
def flat (δ : EReal) (a u : ℕ → EReal) : EReal :=
  (∑ i ∈ range 512, (a i * gate (a i)) * u (i % 16))
    + δ * ((range 512).sup (fun i => eabs (u (i % 16) * a i))
        - (0 + ∑ i ∈ range 512, eabs (u (i % 16) * a i)))

end Cert.LogicNeuron

end
-- ==== Proof.Rows.lean ====
/-
  A row and a column of a rank-2 array as functions of a plain lane / row NUMBER, so that the lane folds and the
  contractions of both programs are stated over `ℕ → α` with no bound proofs in their indices. A number past the end
  reads the last lane (of the row) or the last of the first `K` rows (of the column); the programs only ever ask for
  numbers inside.
-/
import Idealize.ShloMosaic.Lib.ValueIdx

namespace Cert.LogicNeuron

open Idealize.ShloMosaic Idealize.ShloMosaic.ValueIdx

/-- Row `b` of a rank-2 array, by lane number. -/
def rowN {α : Type} {R C : ℕ} (hC : 0 < C) (x : (⟨2, ![R, C]⟩ : Shape).Idx → α) (b : Fin R) (j : ℕ) : α :=
  x (ix2 b ⟨min j (C - 1), by omega⟩)

/-- Column `o` of the first `K` rows of a rank-2 array, by row number. -/
def colN {α : Type} {R C : ℕ} (K : ℕ) (hK : 0 < K ∧ K ≤ R) (x : (⟨2, ![R, C]⟩ : Shape).Idx → α) (o : Fin C) (r : ℕ) : α :=
  x (ix2 ⟨min r (K - 1), by omega⟩ o)

/-- A lane number inside the row reads that lane. -/
theorem rowN_of_lt {α : Type} {R C : ℕ} (hC : 0 < C) (x : (⟨2, ![R, C]⟩ : Shape).Idx → α) (b : Fin R) (j : ℕ) (hj : j < C) :
    rowN hC x b j = x (ix2 b ⟨j, hj⟩) := by
  unfold rowN
  congr 2
  exact Fin.ext (by show min j (C - 1) = j; omega)

/-- A row number among the first `K` reads that row. -/
theorem colN_of_lt {α : Type} {R C : ℕ} (K : ℕ) (hK : 0 < K ∧ K ≤ R) (x : (⟨2, ![R, C]⟩ : Shape).Idx → α) (o : Fin C) (r : ℕ)
    (hr : r < K) : colN K hK x o r = x (ix2 ⟨r, by omega⟩ o) := by
  unfold colN
  congr 2
  exact Fin.ext (by show min r (K - 1) = r; omega)

end Cert.LogicNeuron
-- ==== Proof.LibLaneFold.lean ====
/-
  Lane folds and keep-dims broadcasts of rank-2 vectors, read by lane NUMBER (generic in the sizes and in the element type).

  * a unit-stride column slice `v[:, off : off + n]` read at lane `j < n` is `v` at lane `off + j`;
  * one HALVING step of a lane fold, `op v[:, 0 : n] v[:, n : 2n]`, read at lane `j < n`, combines lanes `j` and `n + j`
    of `v` (`halve`); stated so that the steps of a halving tree chain: what is known of every lane of `v` gives every lane
    of the folded vector;
  * the outer-product operands `v[:, r : r+1]` broadcast along the lanes and `u[r : r+1, :]` broadcast along the rows,
    read at `(b, o)`, are `v (b, r)` and `u (r, o)`.
-/
import proofs.«423587_j57793079935283_3_alg».proof.Proof.Spec
import proofs.«423587_j57793079935283_3_alg».proof.Proof.Rows
import Idealize.ShloMosaic.Lib.Pipeline.Value
import Idealize.ShloMosaic.Lib.ValueIdx

namespace Cert.LogicNeuron

open Idealize.ShloMosaic Idealize.ShloMosaic.ValueIdx

variable {α : Type}

/-- The left half-open slice `v[:, 0 : n]` at lane `j < n` is `v` at lane `j`. -/
theorem rowN_slice0 {R m n : ℕ} (x : (⟨2, ![R, m]⟩ : Shape).Idx → α)
    (h : (⟨2, ![R, m]⟩ : Shape).Slices ![0, 0] ⟨2, ![R, n]⟩) (hn : 0 < n) (hm : 0 < m) (hle : n ≤ m)
    (b : Fin R) (j : ℕ) (hj : j < n) :
    rowN hn (extractStridedSlice ⟨2, ![R, n]⟩ ![0, 0] x h) b j = rowN hm x b j := by
  unfold rowN
  refine extractStridedSlice_apply _ x h _ _ fun a => ?_
  match a with
  | ⟨0, _⟩ => show b.val = 0 + b.val; omega
  | ⟨1, _⟩ => show min j (m - 1) = 0 + min j (n - 1); omega

/-- The slice `v[:, off : off + n]` at lane `j < n` is `v` at lane `off + j`. -/
theorem rowN_slice {R m n : ℕ} (off : ℕ) (x : (⟨2, ![R, m]⟩ : Shape).Idx → α)
    (h : (⟨2, ![R, m]⟩ : Shape).Slices ![0, off] ⟨2, ![R, n]⟩) (hn : 0 < n) (hm : 0 < m) (hle : off + n ≤ m)
    (b : Fin R) (j : ℕ) (hj : j < n) :
    rowN hn (extractStridedSlice ⟨2, ![R, n]⟩ ![0, off] x h) b j = rowN hm x b (off + j) := by
  unfold rowN
  refine extractStridedSlice_apply _ x h _ _ fun a => ?_
  match a with
  | ⟨0, _⟩ => show b.val = 0 + b.val; omega
  | ⟨1, _⟩ => show min (off + j) (m - 1) = off + min j (n - 1); omega

/-- ONE HALVING STEP. If every lane `j < 2n` of `v` is `f j`, then every lane `j < n` of `op v[:, 0:n] v[:, n:2n]` is
    `op (f j) (f (n + j))`. (`opv` is the vector operation, `op` its action on elements.) -/
theorem rowN_halve {R m n : ℕ} (op : α → α → α)
    (opv : ((⟨2, ![R, n]⟩ : Shape).Idx → α) → ((⟨2, ![R, n]⟩ : Shape).Idx → α) → ((⟨2, ![R, n]⟩ : Shape).Idx → α))
    (hop : ∀ u v i, opv u v i = op (u i) (v i))
    (x : (⟨2, ![R, m]⟩ : Shape).Idx → α)
    (h0 : (⟨2, ![R, m]⟩ : Shape).Slices ![0, 0] ⟨2, ![R, n]⟩) (h1 : (⟨2, ![R, m]⟩ : Shape).Slices ![0, n] ⟨2, ![R, n]⟩)
    (hn : 0 < n) (hm : 0 < m) (hle : n + n ≤ m) (b : Fin R) (f : ℕ → α)
    (hf : ∀ j, j < n + n → rowN hm x b j = f j) (j : ℕ) (hj : j < n) :
    rowN hn (opv (extractStridedSlice ⟨2, ![R, n]⟩ ![0, 0] x h0) (extractStridedSlice ⟨2, ![R, n]⟩ ![0, n] x h1)) b j
      = halve op n f j := by
  unfold halve
  rw [← hf j (by omega), ← hf (n + j) (by omega), ← rowN_slice0 x h0 hn hm (by omega) b j hj,
    ← rowN_slice n x h1 hn hm hle b j hj]
  exact hop _ _ _

/-- The column `v[:, r : r+1]` broadcast along the lanes, at `(b, o)`, is `v (b, r)`. -/
theorem colBcast_apply {R C K : ℕ} (r : ℕ) (v : (⟨2, ![R, K]⟩ : Shape).Idx → α)
    (h1 : (⟨2, ![R, K]⟩ : Shape).Slices ![0, r] ⟨2, ![R, 1]⟩) (h2 : (⟨2, ![R, 1]⟩ : Shape).Broadcasts ⟨2, ![R, C]⟩)
    (hK : 0 < K) (hr : r < K) (b : Fin R) (o : Fin C) :
    broadcastTo ⟨2, ![R, C]⟩ (extractStridedSlice ⟨2, ![R, 1]⟩ ![0, r] v h1) h2 (ix2 b o) = rowN hK v b r := by
  unfold rowN
  refine (broadcastTo_apply _ h2 (ix2 b o) (ix2 b (0 : Fin 1)) fun a => ?_).trans
    (extractStridedSlice_apply _ v h1 _ _ fun a => ?_)
  · match a with
    | ⟨0, _⟩ =>
      show b.val = if R = 1 then 0 else b.val
      have := b.isLt
      split_ifs with hR
      · omega
      · rfl
    | ⟨1, _⟩ => show (0 : ℕ) = if (1 : ℕ) = 1 then 0 else _; rw [if_pos rfl]
  · match a with
    | ⟨0, _⟩ => show b.val = 0 + b.val; omega
    | ⟨1, _⟩ => show min r (K - 1) = r + 0; omega

/-- The row `u[r : r+1, :]` broadcast along the rows, at `(b, o)`, is `u (r, o)` (for `r` among the first `K` rows). -/
theorem rowBcast_apply {R C K M : ℕ} (r : ℕ) (u : (⟨2, ![M, C]⟩ : Shape).Idx → α)
    (h1 : (⟨2, ![M, C]⟩ : Shape).Slices ![r, 0] ⟨2, ![1, C]⟩) (h2 : (⟨2, ![1, C]⟩ : Shape).Broadcasts ⟨2, ![R, C]⟩)
    (hK : 0 < K ∧ K ≤ M) (hr : r < K) (b : Fin R) (o : Fin C) :
    broadcastTo ⟨2, ![R, C]⟩ (extractStridedSlice ⟨2, ![1, C]⟩ ![r, 0] u h1) h2 (ix2 b o) = colN K hK u o r := by
  unfold colN
  refine (broadcastTo_apply _ h2 (ix2 b o) (ix2 (0 : Fin 1) o) fun a => ?_).trans
    (extractStridedSlice_apply _ u h1 _ _ fun a => ?_)
  · match a with
    | ⟨0, _⟩ => show (0 : ℕ) = if (1 : ℕ) = 1 then 0 else _; rw [if_pos rfl]
    | ⟨1, _⟩ =>
      show o.val = if C = 1 then 0 else o.val
      have := o.isLt
      split_ifs with hC
      · omega
      · rfl
  · match a with
    | ⟨0, _⟩ => show min r (K - 1) = r + 0; omega
    | ⟨1, _⟩ => show o.val = 0 + o.val; omega

end Cert.LogicNeuron
-- ==== Proof.KerBody.lean ====
/-
  What the kernel's body leaves in its output block, read at one entry `(b, o)` of the block: the factored arrangement
  (`Cert.LogicNeuron.factored`) of row `b` of the `x` block and column `o` of the block of the first sixteen weight rows.

  The body gates `x`, folds the gated values, the absolute values (by sum) and the absolute values (by maximum) from 512
  lanes to 16 by five halving steps each, contracts the two sums with the weight block and its absolute value on the
  matrix unit, takes the maximum over the sixteen positions of (folded maximum × |weight|) as a left-nested chain, and
  stores `product + 0.1 · (maximum − sum)`.
-/
import proofs.«423587_j57793079935283_3_alg».proof.Proof.Gen.KernelIdeal.Frame
import proofs.«423587_j57793079935283_3_alg».proof.Proof.LibLaneFold
import Idealize.ShloMosaic.Lib.StackMember
import Idealize.ShloMosaic.PureOps.Ideal.Laws

open scoped BigOperators

noncomputable section

namespace Cert.KernelIdeal.Body

open Cert.KernelIdeal Cert.KernelIdeal.Gen Cert.LogicNeuron Idealize.ShloMosaic Idealize.ShloMosaic.ValueIdx Finset

/-- A one-bit word, zero-extended to 32 bits and read as a signed integer, is the bit. -/
theorem bit_toInt (c : BitVec 1) : (((c.setWidth 32).toInt : ℤ) : ℝ) = ((c.toNat : ℕ) : ℝ) := by
  have h : ∀ c : BitVec 1, (c.setWidth 32).toInt = (c.toNat : ℤ) := by decide
  rw [h c]; norm_cast

/-- A left-nested chain of maxima depends only on the terms it mentions. -/
theorem chainMax_congr (t t' : ℕ → EReal) : ∀ n, (∀ r, r ≤ n → t r = t' r) → chainMax t n = chainMax t' n
  | 0, h => h 0 (le_refl 0)
  | n + 1, h => by
    show max (chainMax t n) (t (n + 1)) = max (chainMax t' n) (t' (n + 1))
    rw [chainMax_congr t t' n (fun r hr => h r (Nat.le_succ_of_le hr)), h (n + 1) (le_refl _)]

/-! ## The three lane folds -/

/-- The gated input at lane `j` of row `b`: `x · [x ≥ -1]`. -/
theorem gated_row (x0 : FVec Ideal S128x512 .f32) (b : Fin 128) (j : ℕ) :
    rowN (α := EReal) (C := 512) (by norm_num)
        (mulf (F := Ideal) x0 (sitofp .f32 (extui 32 (cmpf (F := Ideal) .oge x0 (broadcast S128x512 (Scalar.ofBits .f32 0xBF800000#32))) (by norm_num)))) b j
      = rowN (α := EReal) (C := 512) (by norm_num) x0 b j * gate (rowN (α := EReal) (C := 512) (by norm_num) x0 b j) := by
  unfold rowN gate
  show x0 _ * (((((Ideal.cmp .oge (x0 _) (Ideal.ofBits .f32 0xBF800000#32)).setWidth 32).toInt : ℤ) : ℝ) : EReal) = _
  rw [bit_toInt]

/-- The gated values folded by sum: lane `r < 16` of the folded vector is the five-step halving fold of the gated row. -/
theorem gatedSum_row (x0 : FVec Ideal S128x512 .f32) (b : Fin 128) (r : ℕ) (hr : r < 16) :
    rowN (α := EReal) (C := 16) (by norm_num) (k0_pay3 (F := Ideal) x0) b r
      = fold5 (· + ·) (fun i => rowN (α := EReal) (C := 512) (by norm_num) x0 b i
          * gate (rowN (α := EReal) (C := 512) (by norm_num) x0 b i)) r := by
  unfold k0_pay3 fold5
  refine rowN_halve (· + ·) (addf (F := Ideal) (φ := .f32)) (fun _ _ _ => rfl) _ _ _ (by norm_num) (by norm_num) (by norm_num) b _ (fun j hj => ?_) r hr
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  exact gated_row x0 b j

/-- The absolute values at lane `j` of row `b`. -/
theorem abs_row (x0 : FVec Ideal S128x512 .f32) (b : Fin 128) (j : ℕ) :
    rowN (α := EReal) (C := 512) (by norm_num) (k0_pay2 (F := Ideal) x0) b j
      = eabs (rowN (α := EReal) (C := 512) (by norm_num) x0 b j) := rfl

/-- The absolute values folded by sum. -/
theorem absSum_row (x0 : FVec Ideal S128x512 .f32) (b : Fin 128) (r : ℕ) (hr : r < 16) :
    rowN (α := EReal) (C := 16) (by norm_num) (k0_pay4 (F := Ideal) x0) b r
      = fold5 (· + ·) (fun i => eabs (rowN (α := EReal) (C := 512) (by norm_num) x0 b i)) r := by
  unfold k0_pay4 fold5
  refine rowN_halve (· + ·) (addf (F := Ideal) (φ := .f32)) (fun _ _ _ => rfl) _ _ _ (by norm_num) (by norm_num) (by norm_num) b _ (fun j hj => ?_) r hr
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  refine rowN_halve (· + ·) (addf (F := Ideal) (φ := .f32)) (fun _ _ _ => rfl) _ _ _ (by norm_num) (by norm_num) (by norm_num) b _ (fun j hj => ?_) j hj
  exact abs_row x0 b j

/-- The absolute values folded by maximum. -/
theorem absMax_row (x0 : FVec Ideal S128x512 .f32) (b : Fin 128) (r : ℕ) (hr : r < 16) :
    rowN (α := EReal) (C := 16) (by norm_num) (k0_pay5 (F := Ideal) x0) b r
      = fold5 max (fun i => eabs (rowN (α := EReal) (C := 512) (by norm_num) x0 b i)) r := by
  unfold k0_pay5 fold5
  refine rowN_halve max (maximumf (F := Ideal) (φ := .f32)) (fun _ _ _ => rfl) _ _ _ (by norm_num) (by norm_num) (by norm_num) b _ (fun j hj => ?_) r hr
  refine rowN_halve max (maximumf (F := Ideal) (φ := .f32)) (fun _ _ _ => rfl) _ _ _ (by norm_num) (by norm_num) (by norm_num) b _ (fun j hj => ?_) j hj
  refine rowN_halve max (maximumf (F := Ideal) (φ := .f32)) (fun _ _ _ => rfl) _ _ _ (by norm_num) (by norm_num) (by norm_num) b _ (fun j hj => ?_) j hj
  refine rowN_halve max (maximumf (F := Ideal) (φ := .f32)) (fun _ _ _ => rfl) _ _ _ (by norm_num) (by norm_num) (by norm_num) b _ (fun j hj => ?_) j hj
  refine rowN_halve max (maximumf (F := Ideal) (φ := .f32)) (fun _ _ _ => rfl) _ _ _ (by norm_num) (by norm_num) (by norm_num) b _ (fun j hj => ?_) j hj
  exact abs_row x0 b j

/-- The absolute weight block, by row number of a column. -/
theorem absW_col (x1 : FVec Ideal S16x256 .f32) (o : Fin 256) (r : ℕ) :
    colN (α := EReal) (R := 16) 16 (by norm_num) (k0_pay6 (F := Ideal) x1) o r
      = eabs (colN (α := EReal) (R := 16) 16 (by norm_num) x1 o r) := rfl

/-! ## The contraction on the matrix unit -/

/-- A [128,16] by [16,256] product into a zero accumulator, at `(b, o)`: the sum over the sixteen positions of row `b`
    of the left operand times column `o` of the right one. -/
theorem matmul_rows (A : FVec Ideal S128x16 .f32) (B : FVec Ideal S16x256 .f32) (b : Fin 128) (o : Fin 256) :
    matmul (F := Ideal) dot_S128x16_S16x256_S128x256_1_0_0_1_n_n none A B (constant S128x256 .f32 0x00000000#32) (ix2 b o)
      = ∑ r ∈ range 16, rowN (α := EReal) (C := 16) (by norm_num) A b r * colN (α := EReal) (R := 16) 16 (by norm_num) B o r := by
  rw [Finset.sum_range]
  show FloatOps.matmul (DotDims.plain 128 16 256) none A B (constant S128x256 .f32 0x00000000#32) (ix2 b o) = _
  rw [Ideal.matmul_constant_zero_apply, ← Equiv.sum_comp (contrEquiv1 (DotDims.plain 128 16 256) 16 rfl rfl).symm]
  refine Finset.sum_congr rfl fun c _ => ?_
  have c2 := contrEquiv1_symm_val (DotDims.plain 128 16 256) 16 rfl rfl c
  have l2 : (DotDims.plain 128 16 256).lhsIdx (ix2 b o) ((contrEquiv1 _ 16 rfl rfl).symm c) = ix2 b c := by
    funext ax; apply Fin.ext
    match ax with
    | ⟨0, _⟩ => simp [DotDims.lhsIdx, DotDims.plain]; rfl
    | ⟨1, _⟩ => simp [DotDims.lhsIdx, DotDims.plain]; exact c2
  have r2 : (DotDims.plain 128 16 256).rhsIdx (ix2 b o) ((contrEquiv1 _ 16 rfl rfl).symm c) = ix2 c o := by
    funext ax; apply Fin.ext
    match ax with
    | ⟨0, _⟩ => simp [DotDims.rhsIdx, DotDims.plain]; exact c2
    | ⟨1, _⟩ => simp [DotDims.rhsIdx, DotDims.plain]; rfl
  rw [l2, r2, rowN_of_lt (by norm_num) A b c.val c.isLt, colN_of_lt 16 (by norm_num) B o c.val c.isLt]

/-! ## The stored value -/

/-- The stored vector at `(b, o)`: the first product plus `0.1` times (the chain of maxima over the sixteen positions of
    (folded maximum × |weight|) minus the second product). -/
theorem store_apply (v51 : FVec Ideal S128x16 .f32) (v53 : FVec Ideal S16x256 .f32) (v54 v55 : FVec Ideal S128x256 .f32)
    (b : Fin 128) (o : Fin 256) :
    k0_pay1 (F := Ideal) v51 v53 v54 v55 (k0_pay9 v51 v53) (k0_pay10 v53) (k0_pay11 v51) (ix2 b o)
      = v54 (ix2 b o) + tenth * (chainMax (fun r => rowN (α := EReal) (C := 16) (by norm_num) v51 b r
          * colN (α := EReal) (R := 16) 16 (by norm_num) v53 o r) 15 - v55 (ix2 b o)) := by
  have hc : ∀ (r : ℕ) (_ : r < 16) (h1 : S128x16.Slices ![0, r] S128x1) (h2 : S128x1.Broadcasts S128x256),
      broadcastTo S128x256 (extractStridedSlice S128x1 ![0, r] v51 h1) h2 (ix2 b o)
        = rowN (α := EReal) (C := 16) (by norm_num) v51 b r :=
    fun r hr h1 h2 => colBcast_apply r v51 h1 h2 (by norm_num) hr b o
  have hw : ∀ (r : ℕ) (_ : r < 16) (h1 : S16x256.Slices ![r, 0] S1x256) (h2 : S1x256.Broadcasts S128x256),
      broadcastTo S128x256 (extractStridedSlice S1x256 ![r, 0] v53 h1) h2 (ix2 b o)
        = colN (α := EReal) (R := 16) 16 (by norm_num) v53 o r :=
    fun r hr h1 h2 => rowBcast_apply r v53 h1 h2 (by norm_num) hr b o
  unfold k0_pay1 k0_pay9 k0_pay10 k0_pay11
  simp only [chainMax, addf_apply, mulf_apply, subf_apply, maximumf_apply, broadcast_apply,
    hc 0 (by norm_num), hc 1 (by norm_num), hc 2 (by norm_num), hc 3 (by norm_num), hc 4 (by norm_num), hc 5 (by norm_num), hc 6 (by norm_num), hc 7 (by norm_num), hc 8 (by norm_num), hc 9 (by norm_num), hc 10 (by norm_num), hc 11 (by norm_num), hc 12 (by norm_num), hc 13 (by norm_num), hc 14 (by norm_num), hc 15 (by norm_num),
    hw 0 (by norm_num), hw 1 (by norm_num), hw 2 (by norm_num), hw 3 (by norm_num), hw 4 (by norm_num), hw 5 (by norm_num), hw 6 (by norm_num), hw 7 (by norm_num), hw 8 (by norm_num), hw 9 (by norm_num), hw 10 (by norm_num), hw 11 (by norm_num), hw 12 (by norm_num), hw 13 (by norm_num), hw 14 (by norm_num), hw 15 (by norm_num)]
  rfl

/-- The zero offsets of the whole-buffer loads and of the store. -/
theorem hz : (![0, 0] : Fin 2 → ℕ) = fun _ => 0 := funext fun a => by fin_cases a <;> rfl

/-- WHAT THE BODY LEAVES at `(b, o)` of the output block: the factored arrangement of row `b` of the `x` block and column
    `o` of the weight block. -/
theorem out_apply (x0 : FVec Ideal S128x512 .f32) (x1 : FVec Ideal S16x256 .f32) (b : Fin 128) (o : Fin 256) :
    out0_2 (F := Ideal) x0 x1 (ix2 b o)
      = factored tenth (rowN (α := EReal) (C := 512) (by norm_num) x0 b) (colN (α := EReal) (R := 16) 16 (by norm_num) x1 o) := by
  unfold out0_2
  rw [View.canon_unit_zero hz]
  simp only [View.ld_unit_zero (S := S128x512) hz, View.ld_unit_zero (S := S16x256) hz]
  rw [store_apply]
  unfold factored k0_pay7 k0_pay8
  rw [matmul_rows, matmul_rows]
  congr 1
  · exact Finset.sum_congr rfl fun r hr => by rw [gatedSum_row x0 b r (Finset.mem_range.mp hr)]
  · congr 1
    congr 1
    · exact chainMax_congr _ _ 15 fun r hr => by rw [absMax_row x0 b r (by omega), absW_col]
    · exact Finset.sum_congr rfl fun r hr => by rw [absSum_row x0 b r (Finset.mem_range.mp hr), absW_col]

end Cert.KernelIdeal.Body

end
-- ==== Proof.KerArray.lean ====
/-
  From the blocks to the whole output array, and the kernel's run with its result named.

  The grid has four points; point `t` stages the whole of `x`, the block `weights[0:16, 256 t : 256 t + 256]` and the
  output block `out[:, 256 t : 256 t + 256]`. What point `t` writes back at `(p, q)` of its block is the factored
  arrangement of row `p` of `x` and column `256 t + q` of the first sixteen weight rows: one function `G` of the array
  index. The four blocks cover the array (column `j` lies in block `j / 256`), so after the run the output array is `G`.
-/
import proofs.«423587_j57793079935283_3_alg».proof.Proof.KerBody
import Idealize.ShloMosaic.Lib.Pipeline.Value

noncomputable section

namespace Cert.KernelIdeal.Whole

open Cert.KernelIdeal Cert.KernelIdeal.Gen Cert.LogicNeuron Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The output array as ONE function of the two argument arrays: entry `(p, j)` is the factored arrangement of row `p`
    of `x` and column `j` of the first sixteen rows of `weights`. -/
def G (x : FVec Ideal S128x512 .f32) (w : FVec Ideal S32x1024 .f32) : S128x1024.Idx → EReal := fun i =>
  factored tenth (rowN (α := EReal) (C := 512) (by norm_num) x ⟨(i 0).val, idx2_lt0 i⟩)
    (colN (α := EReal) (R := 32) 16 (by norm_num) w ⟨(i 1).val, idx2_lt1 i⟩)

/-- The `x` block and the weight block at point `t`, at their literal types. -/
abbrev xblk (c : Dev nD) (t : Fin cfg0.N) : FVec Ideal S128x512 .f32 := iblk m c 0 t
abbrev wblk (c : Dev nD) (t : Fin cfg0.N) : FVec Ideal S16x256 .f32 := iblk m c 1 t

/-- The printed index maps, decided over the four points: `x`'s block never moves, the weight block stays on block row 0
    and moves along the columns with the output block, whose column block index is the point's number. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The `x` block is `x` itself. -/
theorem xblk_apply (c : Dev nD) (t : Fin cfg0.N) (p : Fin 128) (j : Fin 512) :
    xblk m c t (ix2 p j) = V m c main_arg0 (ix2 p j) := by
  obtain ⟨e0, e1, -, -, -, -⟩ := idx_facts t
  show V m c main_arg0 (((cfg0.win 0).blk t).view.emb (ix2 p j)) = V m c main_arg0 (ix2 p j)
  congr 1
  funext a; apply Fin.ext
  match a with
  | ⟨0, _⟩ => show win0_0.index t (0 : Fin 2) * 128 + 1 * p.val = p.val; omega
  | ⟨1, _⟩ => show win0_0.index t (1 : Fin 2) * 512 + 1 * j.val = j.val; omega

/-- The weight block at point `t` is rows 0–15, columns `256 t …` of `weights`. -/
theorem wblk_apply (c : Dev nD) (t : Fin cfg0.N) (r : Fin 16) (q : Fin 256) :
    wblk m c t (ix2 r q) = V m c main_arg1 (ix2 (⟨r.val, by omega⟩ : Fin 32) (⟨t.val * 256 + q.val, by have ht : t.val < 4 := t.isLt; show _ < 1024; omega⟩ : Fin 1024)) := by
  obtain ⟨-, -, e2, e3, -, -⟩ := idx_facts t
  show V m c main_arg1 (((cfg0.win 1).blk t).view.emb (ix2 r q)) = _
  congr 1
  funext a; apply Fin.ext
  match a with
  | ⟨0, _⟩ => show win0_1.index t (0 : Fin 2) * 16 + 1 * r.val = r.val; omega
  | ⟨1, _⟩ => show win0_1.index t (1 : Fin 2) * 256 + 1 * q.val = t.val * 256 + q.val; omega

/-- What the body leaves at point `t`, as a function of the block index at its literal type: entry `(p, q)` is `G` at
    `(p, 256 t + q)`. -/
theorem out_blk (c : Dev nD) (t : Fin cfg0.N) :
    out0_2 (F := Ideal) (xblk m c t) (wblk m c t) = fun y : S128x256.Idx =>
      G (V m c main_arg0) (V m c main_arg1)
        (ix2 (⟨(y 0).val, idx2_lt0 y⟩ : Fin 128) (⟨t.val * 256 + (y 1).val, by have ht : t.val < 4 := t.isLt; have := idx2_lt1 y; omega⟩ : Fin 1024)) := by
  funext y
  obtain ⟨p, q, rfl⟩ : ∃ (p : Fin 128) (q : Fin 256), y = ix2 p q := ⟨y 0, y 1, eq_ix2 y⟩
  rw [Body.out_apply]
  unfold G
  congr 1
  · funext j
    unfold rowN
    exact xblk_apply m c t p _
  · funext r
    unfold colN
    exact wblk_apply m c t _ q

/-- WHAT POINT `t` WRITES BACK is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2, out_blk m c t]
  obtain ⟨-, -, -, -, e4, e5⟩ := idx_facts t
  funext y
  show G (V m c main_arg0) (V m c main_arg1) _ = G (V m c main_arg0) (V m c main_arg1) (((cfg0.win 2).blk t).view.emb y)
  congr 1
  funext a; apply Fin.ext
  match a with
  | ⟨0, _⟩ => show (y 0).val = win0_2.index t (0 : Fin 2) * 128 + 1 * (y 0).val; omega
  | ⟨1, _⟩ => show t.val * 256 + (y 1).val = win0_2.index t (1 : Fin 2) * 256 + 1 * (y 1).val; omega

/-- An index of the array is in point `t`'s block iff each coordinate is in the block's range on its axis. -/
theorem mem_blk (t : Fin cfg0.N) (i : S128x1024.Idx) :
    i ∈ ((cfg0.win 2).blk t).view.set ↔ ∀ a : Fin 2, win0_2.index t a * S128x256.size a ≤ (i a).val ∧ (i a).val < win0_2.index t a * S128x256.size a + S128x256.size a := by
  show i ∈ ((View.whole main_v0).slice (win0_2.rect t)).set ↔ _
  rw [View.set_slice_whole, Rect.mem_set_unit]
  exact Iff.rfl

/-- Every index of the output array is in some point's block: column `j` is in block `j / 256`. -/
theorem cover (i : S128x1024.Idx) : ∃ t : Fin cfg0.N, (cfg0.win 2).flush t = true ∧ i ∈ ((cfg0.win 2).blk t).view.set := by
  have hi0 : (i 0).val < 128 := (i 0).isLt
  have hi1 : (i 1).val < 1024 := (i 1).isLt
  refine ⟨⟨(i 1).val / 256, by show _ < 4; omega⟩, flush0_2 _, ?_⟩
  rw [mem_blk]
  obtain ⟨-, -, -, -, e4, e5⟩ := idx_facts ⟨(i 1).val / 256, by show _ < 4; omega⟩
  intro a
  match a with
  | ⟨0, _⟩ => show win0_2.index _ (0 : Fin 2) * 128 ≤ (i 0).val ∧ (i 0).val < win0_2.index _ (0 : Fin 2) * 128 + 128; rw [e4]; omega
  | ⟨1, _⟩ => show win0_2.index _ (1 : Fin 2) * 256 ≤ (i 1).val ∧ (i 1).val < win0_2.index _ (1 : Fin 2) * 256 + 256; rw [e5]; show (i 1).val / 256 * 256 ≤ _ ∧ _ < (i 1).val / 256 * 256 + 256; omega

/-- THE OUTPUT ARRAY after the run is `G` of the argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- THE RUN: every weakly fair execution terminates with the result array at `G` of the arguments and the arguments
    unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.Law.lean ====
/-
  The law joining the two arrangements: `factored δ a u = flat δ a u` whenever every `a i` and every `u r` is a real.

  Feature `i = r + 16 g` (`r < 16` the in-group position, `g < 32` the repeat) uses weight `u r`, since
  `(r + 16 g) % 16 = r`. The scale `δ` is never opened: the three components it combines are equal one by one.

  * The halving tree is a strided sum. With `strideSum f w K j = ∑ k < K, f (j + w k)`, one halving step at width `w`
    turns stride `2 w` into stride `w` and doubles the number of samples:
      `strideSum f (2 w) K j + strideSum f (2 w) K (w + j) = strideSum f w (2 K) j`.
    Five steps (`w = 256, 128, 64, 32, 16`) from `f = strideSum f 512 1` give `fold5 (+) f r = ∑ g < 32, f (r + 16 g)`.
    The same holds for `max` and finite suprema: `fold5 max f r = sup_{g < 32} f (r + 16 g)`.
  * A left-nested chain of maxima over `0..n` is the supremum over `range (n + 1)`.
  * `range 512` is the injective image of `range 16 × range 32` under `(r, g) ↦ r + 16 g`, so sums and suprema over
    the 512 features split into a position part and a repeat part.
  * A real factor distributes over a finite sum of reals (computed in `ℝ`); `|u · a| = |a| · |u|` for reals; and a
    nonnegative factor commutes with the supremum of a nonempty finite family (the supremum is attained).
-/
import proofs.«423587_j57793079935283_3_alg».proof.Proof.Spec

open scoped BigOperators

noncomputable section

namespace Cert.LogicNeuron

open Finset

/-! ### Strided sums and the halving tree -/

/-- The sum of `K` samples of `f` starting at `j` with stride `w`. -/
def strideSum {M : Type} [AddCommMonoid M] (f : ℕ → M) (w K j : ℕ) : M :=
  ∑ k ∈ range K, f (j + w * k)

/-- One halving step: the two half-rows of stride `2 w` interleave into one row of stride `w`. -/
theorem strideSum_halve {M : Type} [AddCommMonoid M] (f : ℕ → M) (w K j : ℕ) :
    strideSum f (2 * w) K j + strideSum f (2 * w) K (w + j) = strideSum f w (2 * K) j := by
  unfold strideSum
  induction K with
  | zero => simp
  | succ K ih =>
    have e : 2 * (K + 1) = (2 * K + 1) + 1 := by ring
    rw [e, sum_range_succ, sum_range_succ, sum_range_succ, sum_range_succ, ← ih]
    have e1 : j + 2 * w * K = j + w * (2 * K) := by ring
    have e2 : w + j + 2 * w * K = j + w * (2 * K + 1) := by ring
    rw [e1, e2]
    abel

/-- The same, as an identity of folded rows. -/
theorem halve_strideSum {M : Type} [AddCommMonoid M] (f : ℕ → M) (w K : ℕ) :
    halve (· + ·) w (strideSum f (2 * w) K) = strideSum f w (2 * K) := by
  funext j
  exact strideSum_halve f w K j

/-- Five halving steps sum the 32 repeats of each in-group position. -/
theorem fold5_add {M : Type} [AddCommMonoid M] (f : ℕ → M) (r : ℕ) :
    fold5 (· + ·) f r = ∑ g ∈ range 32, f (r + 16 * g) := by
  have h0 : strideSum f 512 1 = f := by
    funext j; simp [strideSum]
  have h1 : halve (· + ·) 256 f = strideSum f 256 2 := by
    conv_lhs => rw [← h0]
    exact halve_strideSum f 256 1
  have h2 : halve (· + ·) 128 (strideSum f 256 2) = strideSum f 128 4 := halve_strideSum f 128 2
  have h3 : halve (· + ·) 64 (strideSum f 128 4) = strideSum f 64 8 := halve_strideSum f 64 4
  have h4 : halve (· + ·) 32 (strideSum f 64 8) = strideSum f 32 16 := halve_strideSum f 32 8
  have h5 : halve (· + ·) 16 (strideSum f 32 16) = strideSum f 16 32 := halve_strideSum f 16 16
  unfold fold5
  rw [h1, h2, h3, h4, h5]
  rfl

/-! ### Strided maxima -/

/-- The supremum of `K` samples of `f` starting at `j` with stride `w`. -/
def strideSup (f : ℕ → EReal) (w K j : ℕ) : EReal :=
  (range K).sup fun k => f (j + w * k)

/-- One halving step for maxima. -/
theorem strideSup_halve (f : ℕ → EReal) (w K j : ℕ) :
    max (strideSup f (2 * w) K j) (strideSup f (2 * w) K (w + j)) = strideSup f w (2 * K) j := by
  unfold strideSup
  induction K with
  | zero => simp
  | succ K ih =>
    have e : 2 * (K + 1) = (2 * K + 1) + 1 := by ring
    rw [e, range_add_one, range_add_one, range_add_one (n := 2 * K), sup_insert, sup_insert, sup_insert, sup_insert, ← ih]
    have e1 : j + 2 * w * K = j + w * (2 * K) := by ring
    have e2 : w + j + 2 * w * K = j + w * (2 * K + 1) := by ring
    rw [e1, e2]
    ac_rfl

/-- A left-nested chain of maxima is the supremum over an initial segment. -/
theorem chainMax_eq_sup (t : ℕ → EReal) (n : ℕ) : chainMax t n = (range (n + 1)).sup t := by
  induction n with
  | zero => simp [chainMax]
  | succ n ih =>
    rw [chainMax, ih, range_add_one (n := n + 1), sup_insert, max_comm]

/-- The halving step for maxima, as an identity of folded rows. -/
theorem halve_strideSup (f : ℕ → EReal) (w K : ℕ) :
    halve max w (strideSup f (2 * w) K) = strideSup f w (2 * K) := by
  funext j
  exact strideSup_halve f w K j

/-- Five halving steps take the maximum over the 32 repeats of each in-group position. -/
theorem fold5_max (f : ℕ → EReal) (r : ℕ) :
    fold5 max f r = (range 32).sup fun g => f (r + 16 * g) := by
  have h0 : strideSup f 512 1 = f := by
    funext j; simp [strideSup]
  have h1 : halve max 256 f = strideSup f 256 2 := by
    conv_lhs => rw [← h0]
    exact halve_strideSup f 256 1
  have h2 : halve max 128 (strideSup f 256 2) = strideSup f 128 4 := halve_strideSup f 128 2
  have h3 : halve max 64 (strideSup f 128 4) = strideSup f 64 8 := halve_strideSup f 64 4
  have h4 : halve max 32 (strideSup f 64 8) = strideSup f 32 16 := halve_strideSup f 32 8
  have h5 : halve max 16 (strideSup f 32 16) = strideSup f 16 32 := halve_strideSup f 16 16
  unfold fold5
  rw [h1, h2, h3, h4, h5]
  rfl

/-! ### Re-indexing the 512 features by (position, repeat) -/

/-- Every feature index below 512 is `r + 16 g` for a unique position `r < 16` and repeat `g < 32`. -/
theorem range512_eq :
    range 512 = (range 16 ×ˢ range 32).image (fun p : ℕ × ℕ => p.1 + 16 * p.2) := by
  ext i
  simp only [mem_range, mem_image, mem_product, Prod.exists]
  constructor
  · intro h
    exact ⟨i % 16, i / 16, ⟨by omega, by omega⟩, by omega⟩
  · rintro ⟨r, g, ⟨hr, hg⟩, rfl⟩
    omega

/-- `(r, g) ↦ r + 16 g` is injective on `r < 16`. -/
theorem injOn_pos_repeat :
    Set.InjOn (fun p : ℕ × ℕ => p.1 + 16 * p.2) (range 16 ×ˢ range 32 : Finset (ℕ × ℕ)) := by
  rintro ⟨r, g⟩ h ⟨r', g'⟩ h' e
  simp only [coe_product, coe_range, Set.mem_prod, Set.mem_Iio] at h h'
  simp only at e
  have h1 : r = r' := by omega
  have h2 : g = g' := by omega
  rw [h1, h2]

/-- A sum over the 512 features is a sum over positions of sums over repeats. -/
theorem sum_range512 {M : Type} [AddCommMonoid M] (F : ℕ → M) :
    ∑ i ∈ range 512, F i = ∑ r ∈ range 16, ∑ g ∈ range 32, F (r + 16 * g) := by
  rw [range512_eq, sum_image injOn_pos_repeat, sum_product]

/-- A supremum over the 512 features is a supremum over positions of suprema over repeats. -/
theorem sup_range512 (F : ℕ → EReal) :
    (range 512).sup F = (range 16).sup fun r => (range 32).sup fun g => F (r + 16 * g) := by
  rw [range512_eq, sup_image, sup_product_left]
  rfl

/-- The weight row of feature `r + 16 g` is `r`. -/
theorem pos_repeat_mod {r : ℕ} (hr : r ∈ range 16) (g : ℕ) : (r + 16 * g) % 16 = r := by
  have := mem_range.mp hr
  omega

/-! ### Real factors -/

/-- The embedding of the reals commutes with finite sums. -/
theorem coe_sum_real {ι : Type} (s : Finset ι) (β : ι → ℝ) :
    ((∑ g ∈ s, β g : ℝ) : EReal) = ∑ g ∈ s, (β g : EReal) := by
  classical
  induction s using Finset.induction_on with
  | empty => simp
  | insert a s ha ih => rw [sum_insert ha, sum_insert ha, EReal.coe_add, ih]

/-- A real factor distributes over a finite sum of reals. -/
theorem sum_mul_real {ι : Type} (s : Finset ι) (A : ι → EReal) (c : EReal)
    (hA : ∀ g, ∃ x : ℝ, A g = (x : EReal)) (hc : ∃ y : ℝ, c = (y : EReal)) :
    (∑ g ∈ s, A g) * c = ∑ g ∈ s, A g * c := by
  choose β hβ using hA
  obtain ⟨y, rfl⟩ := hc
  simp only [hβ, ← EReal.coe_mul, ← coe_sum_real, Finset.sum_mul]

/-- On a real, `max x (-x)` is the absolute value. -/
theorem eabs_coe (x : ℝ) : eabs (x : EReal) = ((|x| : ℝ) : EReal) := by
  unfold eabs
  rw [← EReal.coe_neg, abs_eq_max_neg]
  exact (EReal.coe_strictMono.monotone.map_max).symm

/-- `|y · x| = |x| · |y|` for reals. -/
theorem eabs_mul_real (x y : ℝ) :
    eabs ((y : EReal) * (x : EReal)) = eabs (x : EReal) * eabs (y : EReal) := by
  rw [← EReal.coe_mul, eabs_coe, eabs_coe, eabs_coe, ← EReal.coe_mul, abs_mul, mul_comm]

/-- A nonnegative factor commutes with the supremum of a nonempty finite family: `≤` by monotonicity of
    multiplication by a nonnegative factor, `≥` because the supremum is attained. -/
theorem sup_mul_nonneg {ι : Type} (s : Finset ι) (hs : s.Nonempty) (h : ι → EReal) (c : EReal)
    (hc : 0 ≤ c) : (s.sup fun g => h g * c) = s.sup h * c := by
  apply le_antisymm
  · exact Finset.sup_le fun g hg => mul_le_mul_of_nonneg_right (Finset.le_sup hg) hc
  · obtain ⟨g, hg, e⟩ := Finset.exists_mem_eq_sup s hs h
    rw [e]
    exact Finset.le_sup (f := fun g => h g * c) hg

/-! ### The three components -/

/-- Folding the repeats first and then contracting with a weight that depends on the position alone is the flat
    contraction over all 512 features, for real entries and real weights. -/
theorem sum_fold5_mul (b c : ℕ → EReal) (hb : ∀ i, ∃ x : ℝ, b i = (x : EReal))
    (hc : ∀ r, ∃ y : ℝ, c r = (y : EReal)) :
    ∑ r ∈ range 16, fold5 (· + ·) b r * c r = ∑ i ∈ range 512, b i * c (i % 16) := by
  rw [sum_range512]
  refine sum_congr rfl fun r hr => ?_
  rw [fold5_add, sum_mul_real _ _ _ (fun g => hb (r + 16 * g)) (hc r)]
  refine sum_congr rfl fun g _ => ?_
  rw [pos_repeat_mod hr]

/-- The gate is a real (a natural number). -/
theorem gate_real (x : EReal) : ∃ y : ℝ, gate x = (y : EReal) := ⟨_, rfl⟩

/-- The factored and the flat arrangement agree on real rows and real weight columns, for every scale `δ`. -/
theorem factored_eq_flat (δ : EReal) (a u : ℕ → EReal)
    (ha : ∀ i, ∃ r : ℝ, a i = (r : EReal)) (hu : ∀ r, ∃ s : ℝ, u r = (s : EReal)) :
    factored δ a u = flat δ a u := by
  choose α hα using ha
  choose μ hμ using hu
  have hgated : ∀ i, ∃ x : ℝ, a i * gate (a i) = (x : EReal) := by
    intro i
    obtain ⟨y, hy⟩ := gate_real (a i)
    exact ⟨α i * y, by rw [hy, hα i, EReal.coe_mul]⟩
  have habs_a : ∀ i, ∃ x : ℝ, eabs (a i) = (x : EReal) := fun i => ⟨|α i|, by rw [hα i, eabs_coe]⟩
  have habs_u : ∀ r, ∃ y : ℝ, eabs (u r) = (y : EReal) := fun r => ⟨|μ r|, by rw [hμ r, eabs_coe]⟩
  have habs_mul : ∀ i r, eabs (u r * a i) = eabs (a i) * eabs (u r) := by
    intro i r
    rw [hα i, hμ r, eabs_mul_real]
  have hnonneg : ∀ r, 0 ≤ eabs (u r) := by
    intro r
    rw [hμ r, eabs_coe]
    exact EReal.coe_nonneg.mpr (abs_nonneg _)
  -- the gated sum
  have e1 : ∑ r ∈ range 16, fold5 (· + ·) (fun i => a i * gate (a i)) r * u r
      = ∑ i ∈ range 512, (a i * gate (a i)) * u (i % 16) :=
    sum_fold5_mul (fun i => a i * gate (a i)) u hgated (fun r => ⟨μ r, hμ r⟩)
  -- the sum of absolute values
  have e2 : ∑ r ∈ range 16, fold5 (· + ·) (fun i => eabs (a i)) r * eabs (u r)
      = ∑ i ∈ range 512, eabs (u (i % 16) * a i) := by
    rw [sum_fold5_mul (fun i => eabs (a i)) (fun r => eabs (u r)) habs_a habs_u]
    exact sum_congr rfl fun i _ => (habs_mul i (i % 16)).symm
  -- the maximum of absolute values
  have e3 : chainMax (fun r => fold5 max (fun i => eabs (a i)) r * eabs (u r)) 15
      = (range 512).sup (fun i => eabs (u (i % 16) * a i)) := by
    rw [chainMax_eq_sup, sup_range512]
    refine Finset.sup_congr rfl fun r hr => ?_
    show fold5 max (fun i => eabs (a i)) r * eabs (u r) = _
    rw [fold5_max, ← sup_mul_nonneg _ (by simp) _ _ (hnonneg r)]
    refine Finset.sup_congr rfl fun g _ => ?_
    show eabs (a (r + 16 * g)) * eabs (u r) = eabs (u ((r + 16 * g) % 16) * a (r + 16 * g))
    rw [pos_repeat_mod hr, habs_mul]
  unfold factored flat
  rw [e1, e2, e3, zero_add]

end Cert.LogicNeuron

end
-- ==== Proof.RefTerm.lean ====
/-
  The reference's result as ONE term of its two arguments: its host operations composed in program order.

  `weights[ROW_IDX]` is a row gather at a literal table of 512 start indices (each normalised by the usual
  "negative index wraps" select, a no-op on a table of nonnegative entries); the product `W[None] * x[:, :, None]`
  is formed over the full [128, 512, 1024] box by broadcasts, its absolute value reduced over the feature axis once
  by maximum (from -inf) and once by sum (from 0); the matrix product contracts the gated `x` with the gathered
  weights; the result is `product + 0.1 · (max − sum)`.
-/
import proofs.«423587_j57793079935283_3_alg».proof.Proof.Gen.ReferenceIdeal

noncomputable section

namespace Cert.ReferenceIdeal.RefTerm

open Cert.ReferenceIdeal Cert.ReferenceIdeal.Gen Idealize.ShloMosaic

variable {F : FTy → Type} [FloatOps F]

/-- The literal table of start indices (`ROW_IDX`). -/
def tab : IVec S512 32 := fun i => lit0 (S512.rowMajor i)

/-- The start indices as the gather takes them: negative entries wrapped by 32, then laid out as a column. -/
def starts : IVec S512x1 32 :=
  broadcastInDim S512x1 ![0] bcast_S512_S512x1_0
    (select (cmpi .slt tab (broadcastInDim S512 ![] bcast_S_S512 (constantI S_ 32 0#32)))
      (addi tab (broadcastInDim S512 ![] bcast_S_S512 (constantI S_ 32 32#32))) tab)

/-- `weights[ROW_IDX]`: one weight row per input feature. -/
def wfull (w : FVec F S32x1024 .f32) : FVec F S512x1024 .f32 :=
  Host.gather gather_S32x1024_S512x1_S512x1024_1_0_n_n_0_1_11024 w starts

/-- `|W[None, :, :] * x[:, :, None]|` over the full box. -/
def prodAbs (x : FVec F S128x512 .f32) (w : FVec F S32x1024 .f32) : FVec F S128x512x1024 .f32 :=
  Host.absf (mulf
    (broadcastInDim S128x512x1024 ![0, 1, 2] bcast_S1x512x1024_S128x512x1024_0_1_2
      (broadcastInDim S1x512x1024 ![1, 2] bcast_S512x1024_S1x512x1024_1_2 (wfull w)))
    (broadcastInDim S128x512x1024 ![0, 1, 2] bcast_S128x512x1_S128x512x1024_0_1_2
      (broadcastInDim S128x512x1 ![0, 1] bcast_S128x512_S128x512x1_0_1 x)))

/-- The gated input `x * (x >= -1)`. -/
def gated (x : FVec F S128x512 .f32) : FVec F S128x512 .f32 :=
  mulf x (uitofp .f32 (cmpf .oge x (broadcastInDim S128x512 ![] bcast_S_S128x512 (constant S_ .f32 0xBF800000#32))))

/-- The reference's result. -/
def refOut (x : FVec F S128x512 .f32) (w : FVec F S32x1024 .f32) : FVec F S128x1024 .f32 :=
  addf (Host.dotGeneral dot_S128x512_S512x1024_S128x1024_1_0_0_1_n_n none (gated x) (wfull w))
    (mulf (broadcastInDim S128x1024 ![] bcast_S_S128x1024 (constant S_ .f32 0x3DCCCCCD#32))
      (subf (Host.reduce FloatOps.maximumf (prodAbs x w) (constant S_ .f32 0xFF800000#32) reducesTo_S128x512x1024_S128x1024_d1 h_S_)
        (Host.reduceAdd (prodAbs x w) (constant S_ .f32 0x00000000#32) reducesTo_S128x512x1024_S128x1024_d1 h_S_)))

end Cert.ReferenceIdeal.RefTerm

end
-- ==== Proof.RefRun.lean ====
/-
  The reference program's run, read back: its 31 host operations as a list, in program order, and the statement
  that every weakly fair execution of the program terminates with the result buffer holding the operations'
  composed term `RefTerm.refOut` of the two arguments' launch contents, the arguments themselves unchanged.

  The operations are a straight line, each writing one buffer of its own, so what a buffer holds at the end is a
  fold: an operation's result at its own buffer is its function applied to what its operand buffers held, and at
  any other buffer what was there. Unfolding that fold from the result buffer back to the arguments gives a term
  built from the same operations as `RefTerm.refOut`, in the same order; the two agree by unfolding definitions.
  Nothing is evaluated: the table of start indices stays the opaque function it is printed as.
-/
import proofs.«423587_j57793079935283_3_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 31 operations, in order. -/
abbrev ops : List (HloOp τ sig (Elt F)) :=
  [ nullary main_c (fun i => lit0 (S512.rowMajor i)),
    nullary main_c_0 (constantI S_ 32 0#32),
    unary main_c_0 main_v0 (broadcastInDim S512 ![] bcast_S_S512 : (⟨S_, .i32⟩ : BufTy).Contents (Elt F) → (⟨S512, .i32⟩ : BufTy).Contents (Elt F)),
    binary main_c main_v0 main_v1 (cmpi .slt : (⟨S512, .i32⟩ : BufTy).Contents (Elt F) → (⟨S512, .i32⟩ : BufTy).Contents (Elt F) → (⟨S512, .i1⟩ : BufTy).Contents (Elt F)),
    nullary main_c_1 (constantI S_ 32 32#32),
    unary main_c_1 main_v2 (broadcastInDim S512 ![] bcast_S_S512 : (⟨S_, .i32⟩ : BufTy).Contents (Elt F) → (⟨S512, .i32⟩ : BufTy).Contents (Elt F)),
    binary main_c main_v2 main_v3 (addi : (⟨S512, .i32⟩ : BufTy).Contents (Elt F) → (⟨S512, .i32⟩ : BufTy).Contents (Elt F) → (⟨S512, .i32⟩ : BufTy).Contents (Elt F)),
    ternary main_v1 main_v3 main_c main_v4 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v4 main_v5 (broadcastInDim S512x1 ![0] bcast_S512_S512x1_0 : (⟨S512, .i32⟩ : BufTy).Contents (Elt F) → (⟨S512x1, .i32⟩ : BufTy).Contents (Elt F)),
    binary main_arg1 main_v5 main_v6 ((fun x i => Host.gather gather_S32x1024_S512x1_S512x1024_1_0_n_n_0_1_11024 x i) : (⟨S32x1024, .f32⟩ : BufTy).Contents (Elt F) → (⟨S512x1, .i32⟩ : BufTy).Contents (Elt F) → (⟨S512x1024, .f32⟩ : BufTy).Contents (Elt F)),
    unary main_v6 main_v7 (broadcastInDim S1x512x1024 ![1, 2] bcast_S512x1024_S1x512x1024_1_2 : (⟨S512x1024, .f32⟩ : BufTy).Contents (Elt F) → (⟨S1x512x1024, .f32⟩ : BufTy).Contents (Elt F)),
    unary main_arg0 main_v8 (broadcastInDim S128x512x1 ![0, 1] bcast_S128x512_S128x512x1_0_1 : (⟨S128x512, .f32⟩ : BufTy).Contents (Elt F) → (⟨S128x512x1, .f32⟩ : BufTy).Contents (Elt F)),
    unary main_v7 main_v9 (broadcastInDim S128x512x1024 ![0, 1, 2] bcast_S1x512x1024_S128x512x1024_0_1_2 : (⟨S1x512x1024, .f32⟩ : BufTy).Contents (Elt F) → (⟨S128x512x1024, .f32⟩ : BufTy).Contents (Elt F)),
    unary main_v8 main_v10 (broadcastInDim S128x512x1024 ![0, 1, 2] bcast_S128x512x1_S128x512x1024_0_1_2 : (⟨S128x512x1, .f32⟩ : BufTy).Contents (Elt F) → (⟨S128x512x1024, .f32⟩ : BufTy).Contents (Elt F)),
    binary main_v9 main_v10 main_v11 (mulf : (⟨S128x512x1024, .f32⟩ : BufTy).Contents (Elt F) → (⟨S128x512x1024, .f32⟩ : BufTy).Contents (Elt F) → (⟨S128x512x1024, .f32⟩ : BufTy).Contents (Elt F)),
    unary main_v11 main_v12 (Host.absf : (⟨S128x512x1024, .f32⟩ : BufTy).Contents (Elt F) → (⟨S128x512x1024, .f32⟩ : BufTy).Contents (Elt F)),
    nullary main_cst (constant S_ .f32 0xFF800000#32),
    binary main_v12 main_cst main_v13 ((fun x v => Host.reduce FloatOps.maximumf x v reducesTo_S128x512x1024_S128x1024_d1 h_S_) : (⟨S128x512x1024, .f32⟩ : BufTy).Contents (Elt F) → (⟨S_, .f32⟩ : BufTy).Contents (Elt F) → (⟨S128x1024, .f32⟩ : BufTy).Contents (Elt F)),
    nullary main_cst_2 (constant S_ .f32 0x00000000#32),
    binary main_v12 main_cst_2 main_v14 ((fun x v => Host.reduceAdd x v reducesTo_S128x512x1024_S128x1024_d1 h_S_) : (⟨S128x512x1024, .f32⟩ : BufTy).Contents (Elt F) → (⟨S_, .f32⟩ : BufTy).Contents (Elt F) → (⟨S128x1024, .f32⟩ : BufTy).Contents (Elt F)),
    binary main_v13 main_v14 main_v15 (subf : (⟨S128x1024, .f32⟩ : BufTy).Contents (Elt F) → (⟨S128x1024, .f32⟩ : BufTy).Contents (Elt F) → (⟨S128x1024, .f32⟩ : BufTy).Contents (Elt F)),
    nullary main_cst_3 (constant S_ .f32 0xBF800000#32),
    unary main_cst_3 main_v16 (broadcastInDim S128x512 ![] bcast_S_S128x512 : (⟨S_, .f32⟩ : BufTy).Contents (Elt F) → (⟨S128x512, .f32⟩ : BufTy).Contents (Elt F)),
    binary main_arg0 main_v16 main_v17 (cmpf .oge : (⟨S128x512, .f32⟩ : BufTy).Contents (Elt F) → (⟨S128x512, .f32⟩ : BufTy).Contents (Elt F) → (⟨S128x512, .i1⟩ : BufTy).Contents (Elt F)),
    unary main_v17 main_v18 (uitofp .f32 : (⟨S128x512, .i1⟩ : BufTy).Contents (Elt F) → (⟨S128x512, .f32⟩ : BufTy).Contents (Elt F)),
    binary main_arg0 main_v18 main_v19 (mulf : (⟨S128x512, .f32⟩ : BufTy).Contents (Elt F) → (⟨S128x512, .f32⟩ : BufTy).Contents (Elt F) → (⟨S128x512, .f32⟩ : BufTy).Contents (Elt F)),
    binary main_v19 main_v6 main_v20 ((fun l r => Host.dotGeneral dot_S128x512_S512x1024_S128x1024_1_0_0_1_n_n none l r) : (⟨S128x512, .f32⟩ : BufTy).Contents (Elt F) → (⟨S512x1024, .f32⟩ : BufTy).Contents (Elt F) → (⟨S128x1024, .f32⟩ : BufTy).Contents (Elt F)),
    nullary main_cst_4 (constant S_ .f32 0x3DCCCCCD#32),
    unary main_cst_4 main_v21 (broadcastInDim S128x1024 ![] bcast_S_S128x1024 : (⟨S_, .f32⟩ : BufTy).Contents (Elt F) → (⟨S128x1024, .f32⟩ : BufTy).Contents (Elt F)),
    binary main_v21 main_v15 main_v22 (mulf : (⟨S128x1024, .f32⟩ : BufTy).Contents (Elt F) → (⟨S128x1024, .f32⟩ : BufTy).Contents (Elt F) → (⟨S128x1024, .f32⟩ : BufTy).Contents (Elt F)),
    binary main_v20 main_v22 main_v23 (addf : (⟨S128x1024, .f32⟩ : BufTy).Contents (Elt F) → (⟨S128x1024, .f32⟩ : BufTy).Contents (Elt F) → (⟨S128x1024, .f32⟩ : BufTy).Contents (Elt F)) ]

set_option maxRecDepth 4096 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., nullary_bufs_sub .., binary_bufs_sub .., nullary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., binary_bufs_sub ..⟩

/-- What the result buffer holds once the operations have run in order from contents `V`: the composed term of
    what `V` holds at the two arguments. -/
theorem after_result (V : Valuation τ sig (Elt F)) :
    after (ops (F := F)) V (Proc.devRef .tc main_v23)
      = RefTerm.refOut (V (Proc.devRef .tc main_arg0)) (V (Proc.devRef .tc main_arg1)) := by
  after_results_simp
  unfold RefTerm.refOut RefTerm.gated RefTerm.prodAbs RefTerm.wfull RefTerm.starts RefTerm.tab
  rfl

/-- No operation writes the first argument. -/
theorem after_arg0 (V : Valuation τ sig (Elt F)) :
    after (ops (F := F)) V (Proc.devRef .tc main_arg0) = V (Proc.devRef .tc main_arg0) := by
  after_results_simp

/-- No operation writes the second argument. -/
theorem after_arg1 (V : Valuation τ sig (Elt F)) :
    after (ops (F := F)) V (Proc.devRef .tc main_arg1) = V (Proc.devRef .tc main_arg1) := by
  after_results_simp

/-- On every device, for any float values, from any memory with zero counters: every weakly fair execution of
    the program terminates with the result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = RefTerm.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (after_result _),
      (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.RefRead.lean ====
/-
  The reference's result READ AT AN INDEX: at batch row `b` and output column `o` it is the flat arrangement of
  row `b` of `x` and column `o` of the first sixteen weight rows.

  Operation by operation. The literal table of start indices holds `i mod 16` at entry `i`; no entry is negative,
  so the wrap of negative indices leaves the table alone, and the gather reads weight row `i mod 16` for feature `i`.
  The product over the full box at `(b, i, o)` is `|w (i mod 16, o) · x (b, i)|` (the broadcasts only repeat
  entries). Reduced over the feature axis by maximum from minus infinity it is the supremum over the 512 features,
  by sum from zero it is `0 + ∑`. The matrix product contracts the gated input `x · [x ≥ −1]` with the gathered
  weights over the same 512 features. The sums and the supremum over `Fin 512` are those over the naturals below
  512, and an entry of `x` or of the weights at such a number is the row's or the column's value there.
-/
import proofs.«423587_j57793079935283_3_alg».proof.Proof.RefTerm
import proofs.«423587_j57793079935283_3_alg».proof.Proof.Spec
import proofs.«423587_j57793079935283_3_alg».proof.Proof.Rows
import proofs.«423587_j57793079935283_3_alg».proof.Proof.LibGatherScatter
import Idealize.ShloMosaic.Lib.IdealHost
import Idealize.ShloMosaic.Lib.Pipeline.Value
import Idealize.ShloMosaic.Lib.StackMember

open scoped BigOperators

noncomputable section

namespace Cert.ReferenceIdeal.RefRead

open Cert.LogicNeuron Idealize.ShloMosaic Idealize.ShloMosaic.ValueIdx Cert.ReferenceIdeal
open Cert.ReferenceIdeal.Gen

/-! ## The start indices and the gathered weights -/
/-- Entry `i` of the literal table is `i mod 16`, as a word. -/
theorem lit0_eq : ∀ i : Fin 512, lit0 i = BitVec.ofNat 32 (i.val % 16) := by decide

/-- A word below 16 is not negative, so the wrap of negative entries leaves it alone, and its signed value is itself. -/
theorem wrap_small : ∀ r : Fin 16,
    (Scalar.select (IntOp.cmpi .slt (BitVec.ofNat 32 r.val) 0#32) (IntOp.addi (BitVec.ofNat 32 r.val) 32#32)
      (BitVec.ofNat 32 r.val)).toInt = ((r.val : ℕ) : ℤ) := by decide

/-- The table at a rank-1 index is the literal at its coordinate. -/
theorem tab_apply (i : Fin 512) : RefTerm.tab (ix1 i) = lit0 i := by
  unfold RefTerm.tab
  congr 1
  exact Fin.ext (Shape.rowMajor_val_one (ix1 i))

/-- The start index of feature `i`, read signed, is `i mod 16`. -/
theorem starts_toInt (i : Fin 512) : (RefTerm.starts (ix2 i (0 : Fin 1))).toInt = ((i.val % 16 : ℕ) : ℤ) := by
  unfold RefTerm.starts
  rw [broadcastInDim_apply ![0] bcast_S512_S512x1_0 _ (ix2 i (0 : Fin 1)) (ix1 i)
    (fun a => by match a with | ⟨0, _⟩ => rfl)]
  rw [select_apply]
  show (Scalar.select (IntOp.cmpi .slt (RefTerm.tab (ix1 i)) (broadcastInDim S512 ![] bcast_S_S512 (constantI S_ 32 0#32) (ix1 i)))
    (IntOp.addi (RefTerm.tab (ix1 i)) (broadcastInDim S512 ![] bcast_S_S512 (constantI S_ 32 32#32) (ix1 i))) (RefTerm.tab (ix1 i))).toInt = _
  rw [broadcastInDim_scalar_apply, broadcastInDim_scalar_apply, tab_apply, lit0_eq]
  exact wrap_small ⟨i.val % 16, Nat.mod_lt _ (by norm_num)⟩

/-- The weight row feature `i` uses: row `i mod 16`. -/
def wrow (i : Fin 512) : Fin 32 := ⟨i.val % 16, by have := Nat.mod_lt i.val (show 0 < 16 by norm_num); omega⟩

/-- The gathered weights at `(i, o)`: the weight at row `i mod 16`, column `o`. -/
theorem wfull_apply (w : FVec Ideal S32x1024 .f32) (i : Fin 512) (o : Fin 1024) :
    RefTerm.wfull (F := Ideal) w (ix2 i o) = w (ix2 (wrow i) o) := by
  unfold RefTerm.wfull
  show Host.gather (Cert.Proof.GS.gathD 32 512 1024 gather_S32x1024_S512x1_S512x1024_1_0_n_n_0_1_11024_wf) w RefTerm.starts (ix2 i o) = _
  rw [Cert.Proof.GS.gather_gathD_apply (by norm_num : 0 < 32),
    Cert.Proof.GS.row_of_toInt (by norm_num : 0 < 32) _ (wrow i) (starts_toInt i)]

/-! ## The pointwise operations -/

/-- The absolute product over the full box at `(b, i, o)`: the broadcasts repeat entries, so it is
    `|w (i mod 16, o) · x (b, i)|`. -/
theorem prodAbs_apply (x : FVec Ideal S128x512 .f32) (w : FVec Ideal S32x1024 .f32) (b : Fin 128) (i : Fin 512) (o : Fin 1024) :
    RefTerm.prodAbs (F := Ideal) x w (ix3 b i o) = eabs (w (ix2 (wrow i) o) * x (ix2 b i)) := by
  unfold RefTerm.prodAbs
  show FloatOps.hostAbsf (F := Ideal) (mulf _ _ (ix3 b i o)) = _
  rw [mulf_apply]
  rw [broadcastInDim_apply ![0, 1, 2] bcast_S1x512x1024_S128x512x1024_0_1_2 _ (ix3 b i o) (ix3 (0 : Fin 1) i o)
      (fun a => by match a with | ⟨0, _⟩ => rfl | ⟨1, _⟩ => rfl | ⟨2, _⟩ => rfl),
    broadcastInDim_apply ![1, 2] bcast_S512x1024_S1x512x1024_1_2 _ (ix3 (0 : Fin 1) i o) (ix2 i o)
      (fun a => by match a with | ⟨0, _⟩ => rfl | ⟨1, _⟩ => rfl),
    broadcastInDim_apply ![0, 1, 2] bcast_S128x512x1_S128x512x1024_0_1_2 _ (ix3 b i o) (ix3 b i (0 : Fin 1))
      (fun a => by match a with | ⟨0, _⟩ => rfl | ⟨1, _⟩ => rfl | ⟨2, _⟩ => rfl),
    broadcastInDim_apply ![0, 1] bcast_S128x512_S128x512x1_0_1 _ (ix3 b i (0 : Fin 1)) (ix2 b i)
      (fun a => by match a with | ⟨0, _⟩ => rfl | ⟨1, _⟩ => rfl),
    wfull_apply]
  rfl

/-- The gated input at `(b, i)`. -/
theorem gated_apply (x : FVec Ideal S128x512 .f32) (b : Fin 128) (i : Fin 512) :
    RefTerm.gated (F := Ideal) x (ix2 b i) = x (ix2 b i) * gate (x (ix2 b i)) := by
  unfold RefTerm.gated
  rw [mulf_apply]
  show x (ix2 b i) * FloatOps.uitofp (F := Ideal) .f32 (FloatOps.cmpf .oge (x (ix2 b i))
    (broadcastInDim S128x512 ![] bcast_S_S128x512 (constant (F := Ideal) S_ .f32 0xBF800000#32) (ix2 b i))) = _
  rw [broadcastInDim_scalar_apply]
  rfl

/-! ## The two reductions over the feature axis and the matrix product -/

/-- The shape fact that names the inserted index of a reduction over the feature axis. -/
theorem redFeat : S128x512x1024.Reduces [1] S128x1024 := by decide

/-- Over result index `(b, o)`, the source index with feature coordinate `k` is `(b, k, o)`. -/
theorem lift_feat (b : Fin 128) (o : Fin 1024) (k : Fin 512) : redFeat.lift (ix2 b o) k = ix3 b k o := by
  funext c
  refine Fin.ext ?_
  match c with
  | ⟨0, _⟩ => rfl
  | ⟨1, _⟩ => rfl
  | ⟨2, _⟩ => rfl

/-- The f32 pattern of minus infinity is the least extended real. -/
theorem ofBits_neg_inf_f32 : Ideal.ofBits .f32 0xFF800000#32 = ⊥ := by simp [Ideal.ofBits, Ideal.ieee]

/-- A supremum over the numbers below `n`, as elements of `Fin n` or as naturals. -/
theorem sup_fin_range (n : ℕ) (f : ℕ → EReal) :
    (Finset.univ : Finset (Fin n)).sup (fun i => f i.val) = (Finset.range n).sup f := by
  apply le_antisymm
  · exact Finset.sup_le fun i _ => Finset.le_sup (f := f) (Finset.mem_range.mpr i.isLt)
  · exact Finset.sup_le fun i hi =>
      Finset.le_sup (f := fun i : Fin n => f i.val) (Finset.mem_univ (⟨i, Finset.mem_range.mp hi⟩ : Fin n))

/-- The maximum over the features, from minus infinity: the supremum of the absolute products. -/
theorem maxReduce_apply (x : FVec Ideal S128x512 .f32) (w : FVec Ideal S32x1024 .f32) (b : Fin 128) (o : Fin 1024) :
    Host.reduce FloatOps.maximumf (RefTerm.prodAbs (F := Ideal) x w) (constant (F := Ideal) S_ .f32 0xFF800000#32)
        reducesTo_S128x512x1024_S128x1024_d1 h_S_ (ix2 b o)
      = (Finset.univ : Finset (Fin 512)).sup (fun i => eabs (w (ix2 (wrow i) o) * x (ix2 b i))) := by
  rw [Host.reduce_eq_fold_single FloatOps.maximumf _ _ reducesTo_S128x512x1024_S128x1024_d1 redFeat h_S_ (ix2 b o),
    constant_apply, ofBits_neg_inf_f32]
  show (Finset.univ : Finset (Fin 512)).sup (RefTerm.prodAbs (F := Ideal) x w ∘ redFeat.lift (ix2 b o)) = _
  refine Finset.sup_congr rfl fun i _ => ?_
  show RefTerm.prodAbs (F := Ideal) x w (redFeat.lift (ix2 b o) i) = _
  rw [lift_feat, prodAbs_apply]

/-- The sum over the features, from zero. -/
theorem sumReduce_apply (x : FVec Ideal S128x512 .f32) (w : FVec Ideal S32x1024 .f32) (b : Fin 128) (o : Fin 1024) :
    Host.reduceAdd (RefTerm.prodAbs (F := Ideal) x w) (constant (F := Ideal) S_ .f32 0x00000000#32)
        reducesTo_S128x512x1024_S128x1024_d1 h_S_ (ix2 b o)
      = 0 + ∑ i : Fin 512, eabs (w (ix2 (wrow i) o) * x (ix2 b i)) := by
  rw [hostReduceAdd_apply, Ideal.hostReduceAdd_single reducesTo_S128x512x1024_S128x1024_d1 redFeat, constant_apply,
    Ideal.ofBits_zero_f32]
  congr 1
  show ∑ i : Fin 512, RefTerm.prodAbs (F := Ideal) x w (redFeat.lift (ix2 b o) i) = _
  refine Finset.sum_congr rfl fun i _ => ?_
  rw [lift_feat, prodAbs_apply]

/-- The matrix product of the gated input with the gathered weights. -/
theorem dot_apply (x : FVec Ideal S128x512 .f32) (w : FVec Ideal S32x1024 .f32) (b : Fin 128) (o : Fin 1024) :
    Host.dotGeneral dot_S128x512_S512x1024_S128x1024_1_0_0_1_n_n none (RefTerm.gated (F := Ideal) x) (RefTerm.wfull (F := Ideal) w) (ix2 b o)
      = ∑ i : Fin 512, (x (ix2 b i) * gate (x (ix2 b i))) * w (ix2 (wrow i) o) := by
  show Host.dotGeneral (DotDims.plain 128 512 1024) none (RefTerm.gated (F := Ideal) x) (RefTerm.wfull (F := Ideal) w) (ix2 b o) = _
  rw [StackMember.dotGeneral_plain_apply]
  refine Finset.sum_congr rfl fun i _ => ?_
  rw [gated_apply, wfull_apply]

/-! ## The result at an index -/

/-- A lane number of the row, read as the array's entry. -/
theorem row_read (x : FVec Ideal S128x512 .f32) (b : Fin 128) (i : Fin 512) :
    rowN (by norm_num) x b i.val = x (ix2 b i) := rowN_of_lt _ x b i.val i.isLt

/-- Row `i mod 16` of the column, read as the array's entry. -/
theorem col_read (w : FVec Ideal S32x1024 .f32) (o : Fin 1024) (i : Fin 512) :
    colN 16 (by norm_num) w o (i.val % 16) = w (ix2 (wrow i) o) :=
  colN_of_lt 16 _ w o (i.val % 16) (Nat.mod_lt _ (by norm_num))

/-- THE REFERENCE'S RESULT AT `(b, o)`: the flat arrangement, at the scale one tenth, of row `b` of `x` and column `o`
    of the first sixteen weight rows. -/
theorem refOut_apply (x : FVec Ideal S128x512 .f32) (w : FVec Ideal S32x1024 .f32) (b : Fin 128) (o : Fin 1024) :
    RefTerm.refOut (F := Ideal) x w (ix2 b o)
      = flat tenth (rowN (by norm_num) x b) (colN 16 (by norm_num) w o) := by
  unfold RefTerm.refOut
  rw [addf_apply, mulf_apply, subf_apply, broadcastInDim_scalar_apply, constant_apply, dot_apply, maxReduce_apply,
    sumReduce_apply]
  unfold flat tenth
  rw [← Fin.sum_univ_eq_sum_range (fun i => (rowN (by norm_num) x b i * gate (rowN (by norm_num) x b i)) * colN 16 (by norm_num) w o (i % 16)) 512,
    ← Fin.sum_univ_eq_sum_range (fun i => eabs (colN 16 (by norm_num) w o (i % 16) * rowN (by norm_num) x b i)) 512,
    ← sup_fin_range 512 (fun i => eabs (colN 16 (by norm_num) w o (i % 16) * rowN (by norm_num) x b i))]
  simp only [row_read, col_read]

end Cert.ReferenceIdeal.RefRead
end
-- ==== Proof.Finite.lean ====
/-
  The precondition read back: `finite_inputs` says `|x| < +∞` at every entry of both arguments, so every entry of
  `x` and of `weights` is a real number (neither infinity).
-/
import proofs.«423587_j57793079935283_3_alg».proof.Pre_finite_inputs
import proofs.«423587_j57793079935283_3_alg».proof.Proof.Gen.Pre_finite_inputs
import Idealize.ShloMosaic.PureOps.Ideal
import Idealize.ShloMosaic.Lib.ReduceAll
import Idealize.ShloMosaic.Lib.ValueIdx
import Idealize.ShloMosaic.Lib.IdealHost

namespace Cert.Pre_finite_inputs.Read

open Cert.Pre_finite_inputs Cert.Pre_finite_inputs.Gen Idealize.ShloMosaic Idealize.ShloMosaic.ValueIdx

instance : Subsingleton S_.Idx := ⟨fun a b => funext fun d => d.elim0⟩

/-- The f32 pattern of `+∞` denotes `⊤`. -/
theorem ofBits_inf : Ideal.ofBits .f32 0x7F800000#32 = ⊤ := by simp [Ideal.ofBits, Ideal.ieee]

/-- An extended real whose absolute value `max a (-a)` is below `⊤` is a real number. -/
theorem real_of_abs_lt_top (a : EReal) (h : Ideal.cmp .olt (max a (-a)) ⊤ = 1#1) : ∃ r : ℝ, a = (r : EReal) := by
  induction a using EReal.rec with
  | bot => exfalso; revert h; simp [Ideal.cmp]
  | top => exfalso; revert h; simp [Ideal.cmp]
  | coe r => exact ⟨r, rfl⟩

/-- Under the precondition every entry of both arguments is a real number. -/
theorem real_of_pre (x : FVec Ideal S128x512 .f32) (w : FVec Ideal S32x1024 .f32)
    (h : fn (F := Ideal) x w = fun _ => 1#1) :
    (∀ i, ∃ r : ℝ, x i = (r : EReal)) ∧ (∀ i, ∃ r : ℝ, w i = (r : EReal)) := by
  have h0 := congrFun h ix0
  dsimp only [fn] at h0
  obtain ⟨hx, hw⟩ := IntOp.andi_eq_one.1 h0
  refine ⟨fun i => ?_, fun i => ?_⟩
  · have e := Host.reduce_andi_all _ _ _ _ _ hx i
    refine real_of_abs_lt_top (x i) ?_
    rw [← ofBits_inf]; exact e
  · have e := Host.reduce_andi_all _ _ _ _ _ hw i
    refine real_of_abs_lt_top (w i) ?_
    rw [← ofBits_inf]; exact e

end Cert.Pre_finite_inputs.Read
-- ==== Proof.lean ====
/-
  The certificate of a fused "logic neuron" kernel against its jnp reference, over the extended reals.

  Both programs compute, for `x : [128, 512]` and `weights : [32, 1024]`, with `W[i, :] = weights[i % 16, :]`
  (the reference's index table is `arange(16)` tiled 32 times) and the gate `g = [x ≥ -1]`,

      out[b, o] = ∑ i (x g)[b, i] · W[i, o]  +  0.1 · ( max_i |W[i, o] · x[b, i]|  −  ∑ i |W[i, o] · x[b, i]| ).

  The reference does exactly this over all 512 features (a row gather, a broadcast product over the [128, 512, 1024]
  box reduced by maximum and by sum, a matrix product). The kernel writes `i = r + 16 g`, folds the 32 repeats `g` of each
  in-group position `r` first (three halving trees over the lanes: the gated values and the absolute values by sum, the
  absolute values by maximum), and only then meets the sixteen weight rows it needs: two [128,16]×[16,256] products and a
  sixteen-step chain of maxima per grid point, four grid points tiling the 1024 output columns.

  The two arrangements agree whenever every entry is a real number — a real factor distributes over a finite sum,
  `|w · x| = |x| · |w|`, and a nonnegative real factor commutes with a finite maximum (`Cert.LogicNeuron.factored_eq_flat`) —
  and the precondition says exactly that every entry is finite. The scale `0.1` is the same f32 word on both sides and is
  never evaluated. The kernel's idealization rewrote nothing, so `preserves` is trivial; the three frames are the kernel's
  generated frames and the reference's run with its result dropped.
-/
import proofs.«423587_j57793079935283_3_alg».proof.Defs
import proofs.«423587_j57793079935283_3_alg».proof.Proof.Gen.Kernel
import proofs.«423587_j57793079935283_3_alg».proof.Proof.Gen.Kernel.Skeleton
import proofs.«423587_j57793079935283_3_alg».proof.Proof.Gen.Kernel.Launch
import proofs.«423587_j57793079935283_3_alg».proof.Proof.Gen.Kernel.Points
import proofs.«423587_j57793079935283_3_alg».proof.Proof.Gen.Kernel.Frame
import proofs.«423587_j57793079935283_3_alg».proof.Proof.Gen.KernelIdeal
import proofs.«423587_j57793079935283_3_alg».proof.Proof.Gen.KernelIdeal.Skeleton
import proofs.«423587_j57793079935283_3_alg».proof.Proof.Gen.KernelIdeal.Launch
import proofs.«423587_j57793079935283_3_alg».proof.Proof.Gen.KernelIdeal.Points
import proofs.«423587_j57793079935283_3_alg».proof.Proof.Gen.KernelIdeal.Frame
import proofs.«423587_j57793079935283_3_alg».proof.Proof.Gen.ReferenceIdeal
import proofs.«423587_j57793079935283_3_alg».proof.Proof.Gen.Pre_finite_inputs
import proofs.«423587_j57793079935283_3_alg».proof.Proof.KerArray
import proofs.«423587_j57793079935283_3_alg».proof.Proof.Law
import proofs.«423587_j57793079935283_3_alg».proof.Proof.RefRun
import proofs.«423587_j57793079935283_3_alg».proof.Proof.RefRead
import proofs.«423587_j57793079935283_3_alg».proof.Proof.Finite
import Idealize.ShloMosaic.Adequacy
import Idealize.ShloMosaic.Init

noncomputable section

namespace Cert.Proof

open Idealize.ShloMosaic Idealize.ShloMosaic.ValueIdx Idealize.SL.Sem Cert.LogicNeuron

/-- On arrays of real numbers the reference's result term is the kernel's output function: at `(p, q)` the flat
    arrangement of row `p` of `x` and column `q` of the first sixteen weight rows equals the factored one. -/
theorem result_eq (x : FVec Ideal Cert.ReferenceIdeal.S128x512 .f32) (w : FVec Ideal Cert.ReferenceIdeal.S32x1024 .f32)
    (hx : ∀ i, ∃ r : ℝ, x i = (r : EReal)) (hw : ∀ i, ∃ r : ℝ, w i = (r : EReal)) :
    Cert.ReferenceIdeal.RefTerm.refOut (F := Ideal) x w = Cert.KernelIdeal.Whole.G x w := by
  funext i
  obtain ⟨p, q, rfl⟩ : ∃ (p : Fin 128) (q : Fin 1024), i = ix2 p q := ⟨i 0, i 1, eq_ix2 i⟩
  rw [Cert.ReferenceIdeal.RefRead.refOut_apply]
  show flat tenth (rowN (α := EReal) (C := 512) (by norm_num) x p) (colN (α := EReal) (R := 32) 16 (by norm_num) w q)
    = factored tenth (rowN (α := EReal) (C := 512) (by norm_num) x p) (colN (α := EReal) (R := 32) 16 (by norm_num) w q)
  exact (factored_eq_flat tenth _ _ (fun _ => hx _) (fun _ => hw _)).symm

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs run; the kernel's output array is `G` of its arguments, the reference's result its composed term of
    arguments that agree with the kernel's; under the precondition every entry is real, where the two are one function. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  obtain ⟨hx, hw⟩ := Cert.Pre_finite_inputs.Read.real_of_pre _ _ (hpre c)
  exact result_eq _ _ hx hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
